-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_c_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_c_9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_c_12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x128 : Shape := ⟨2, ![100000, 128]⟩
abbrev S800000x6 : Shape := ⟨2, ![800000, 6]⟩
abbrev S800000 : Shape := ⟨1, ![800000]⟩
abbrev S95x128 : Shape := ⟨2, ![95, 128]⟩
abbrev S6x128 : Shape := ⟨2, ![6, 128]⟩
abbrev S128 : Shape := ⟨1, ![128]⟩
abbrev S640x128 : Shape := ⟨2, ![640, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x6 : S_.BroadcastsInDim S800000x6 (![] : Fin 0 → Fin S800000x6.rank)
  reducesTo_S800000x6_S_d0_1 : S800000x6.ReducesTo [0, 1] S_
  bcast_S_S95x128 : S_.BroadcastsInDim S95x128 (![] : Fin 0 → Fin S95x128.rank)
  reducesTo_S95x128_S_d0_1 : S95x128.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S640x128 : S_.BroadcastsInDim S640x128 (![] : Fin 0 → Fin S640x128.rank)
  reducesTo_S640x128_S_d0_1 : S640x128.ReducesTo [0, 1] S_

variable [Facts]

def fn_part1 {F : FTy → Type} [FloatOps F] (main_arg7 : FVec F S128 .f32) (main_arg8 : FVec F S640x128 .f32) (main_arg9 : FVec F S128 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S640x128 .f32 := Host.absf main_arg8
  let main_cst_8 : FVec F S_ .f32 := constant S_ .f32 0x7F800000#32
  let main_v25 : FVec F S640x128 .f32 := broadcastInDim S640x128 ![] bcast_S_S640x128 main_cst_8
  let main_v26 : IVec S640x128 1 := cmpf .olt main_v24 main_v25
  let main_c_9 : IVec S_ 1 := constantI S_ 1 1#1
  let main_v27 : IVec S_ 1 := (fun x v => Host.reduce IntOp.andi x v reducesTo_S640x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S100000 32) (main_arg1 : FVec F S100000x128 .f32) (main_arg2 : FVec F S800000x6 .f32) (main_arg3 : IVec S800000 32) (main_arg4 : IVec S800000 32) (main_arg5 : FVec F S95x128 .f32) (main_arg6 : FVec F S6x128 .f32) (main_arg7 : FVec F S128 .f32) (main_arg8 : FVec F S640x128 .f32) (main_arg9 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x6 .f32 := Host.absf main_arg2
  let main_cst_0 : FVec F S_ .f32 := constant S_ .f32 0x7F800000#32
  let main_v5 : FVec F S800000x6 .f32 := broadcastInDim S800000x6 ![] bcast_S_S800000x6 main_cst_0
  let main_v6 : IVec S800000x6 1 := cmpf .olt main_v4 main_v5
  let main_c_1 : IVec S_ 1 := constantI S_ 1 1#1
  let main_v7 : IVec S_ 1 := (fun x v => Host.reduce IntOp.andi x v reducesTo_S800000x6_S_d0_1 h_S_) main_v6 main_c_1
  let main_v8 : IVec S_ 1 := andi main_v3 main_v7
  let main_v9 : FVec F S95x128 .f32 := Host.absf main_arg5
  let main_cst_2 : FVec F S_ .f32 := constant S_ .f32 0x7F800000#32
  let main_v10 : FVec F S95x128 .f32 := broadcastInDim S95x128 ![] bcast_S_S95x128 main_cst_2
  let main_v11 : IVec S95x128 1 := cmpf .olt main_v9 main_v10
  let main_c_3 : IVec S_ 1 := constantI S_ 1 1#1
  let main_v12 : IVec S_ 1 := (fun x v => Host.reduce IntOp.andi x v reducesTo_S95x128_S_d0_1 h_S_) main_v11 main_c_3
  let main_v13 : IVec S_ 1 := andi main_v8 main_v12
  let main_v14 : FVec F S6x128 .f32 := Host.absf main_arg6
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg7 main_arg8 main_arg9 main_v13 main_v16
-- ==== Kernel.lean ====
abbrev S100000 : Shape := ⟨1, ![100000]⟩
abbrev S100000x128 : Shape := ⟨2, ![100000, 128]⟩
abbrev S800000x6 : Shape := ⟨2, ![800000, 6]⟩
abbrev S800000 : Shape := ⟨1, ![800000]⟩
abbrev S95x128 : Shape := ⟨2, ![95, 128]⟩
abbrev S6x128 : Shape := ⟨2, ![6, 128]⟩
abbrev S128 : Shape := ⟨1, ![128]⟩
abbrev S640x128 : Shape := ⟨2, ![640, 128]⟩
abbrev S_ : Shape := ⟨0, ![]⟩
abbrev S100000x1 : Shape := ⟨2, ![100000, 1]⟩
abbrev S800000x1 : Shape := ⟨2, ![800000, 1]⟩
abbrev S800000x128 : Shape := ⟨2, ![800000, 128]⟩
abbrev S128x128 : Shape := ⟨2, ![128, 128]⟩
abbrev S1x128 : Shape := ⟨2, ![1, 128]⟩
abbrev S3200x128 : Shape := ⟨2, ![3200, 128]⟩
abbrev S3200x6 : Shape := ⟨2, ![3200, 6]⟩

abbrev nBuf : Space → Nat
  | .hbm => 64
  | .vmem => 20
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S800000x6, .f32⟩
  | .hbm, ⟨3, _⟩ => ⟨S800000, .i32⟩
  | .hbm, ⟨4, _⟩ => ⟨S800000, .i32⟩
  | .hbm, ⟨5, _⟩ => ⟨S95x128, .f32⟩
  | .hbm, ⟨6, _⟩ => ⟨S6x128, .f32⟩
  | .hbm, ⟨7, _⟩ => ⟨S128, .f32⟩
  | .hbm, ⟨8, _⟩ => ⟨S640x128, .f32⟩
  | .hbm, ⟨9, _⟩ => ⟨S128, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S1x128, .f32⟩
  | .hbm, ⟨62, _⟩ => ⟨S800000x128, .f32⟩
  | .hbm, ⟨63, _⟩ => ⟨S_, .i32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S3200x128, .f32⟩
  | .local _ .vmem, ⟨7, _⟩ => ⟨S3200x128, .f32⟩
  | .local _ .vmem, ⟨8, _⟩ => ⟨S3200x6, .f32⟩
  | .local _ .vmem, ⟨9, _⟩ => ⟨S3200x6, .f32⟩
  | .local _ .vmem, ⟨10, _⟩ => ⟨S6x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S3200x128, .f32⟩
  | .local _ .vmem, ⟨19, _⟩ => ⟨S3200x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3200x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3200x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S800000 : S_.BroadcastsInDim S800000 (![] : Fin 0 → Fin S800000.rank)
  bcast_S800000_S800000x1_0 : S800000.BroadcastsInDim S800000x1 (![0] : Fin 1 → Fin S800000x1.rank)
  slices_S640x128_S128x128_0_0 : S640x128.Slices ![0, 0] S128x128
  slices_S640x128_S128x128_128_0 : S640x128.Slices ![128, 0] S128x128
  slices_S640x128_S128x128_256_0 : S640x128.Slices ![256, 0] S128x128
  slices_S640x128_S128x128_384_0 : S640x128.Slices ![384, 0] S128x128
  slices_S640x128_S128x128_512_0 : S640x128.Slices ![512, 0] S128x128
  shapeCasts_S128_S1x128 : S128.ShapeCasts S1x128
  inb_S3200x6_S3200x6_0_0 : ∀ a, (![0, 0] : Fin 2 → Nat) a + S3200x6.size a ≤ S3200x6.size a
  h_S3200x6 : 0 < S3200x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S95x128_S100000x1_S100000x128_1_0_n_n_0_1_1128_wf : GatherDims.WF S95x128 S100000x1 S100000x128 [1] [0] [] [0] [] 1 ![1, 128]
  gather_S100000x128_S800000x1_S800000x128_1_0_n_n_0_1_1128_wf : GatherDims.WF S100000x128 S800000x1 S800000x128 [1] [0] [] [0] [] 1 ![1, 128]
  dot_S3200x6_S6x128_S3200x128_1_0_0_1_n_n_wf : DotDims.WF S3200x6 S6x128 S3200x128 [1] [0] [0] [1] [] []
  dot_S3200x128_S128x128_S3200x128_1_0_0_1_n_n_wf : DotDims.WF S3200x128 S128x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S800000x128.size a
  hwx0_2 : ∀ i : grid0.Coords, EltTy.bits .f32 = 32 ∨ (Rect.block (s := S800000x128) S3200x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x128.size a ≤ S800000x128.size a
  hwx0_3 : ∀ i : grid0.Coords, EltTy.bits .f32 = 32 ∨ (Rect.block (s := S800000x128) S3200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x6.size a ≤ S800000x6.size a
  hwx0_4 : ∀ i : grid0.Coords, EltTy.bits .f32 = 32 ∨ (Rect.block (s := S800000x6) S3200x6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x128.size a ≤ S6x128.size a
  hwx0_5 : ∀ i : grid0.Coords, EltTy.bits .f32 = 32 ∨ (Rect.block (s := S6x128) S6x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x128.size a ≤ S800000x128.size a
  hwx0_13 : ∀ i : grid0.Coords, EltTy.bits .f32 = 32 ∨ (Rect.block (s := S800000x128) S3200x128.size (cc0_transform_13 i) (hinb0_13 i)).WholeWords (EltTy.packing .f32)

variable [Facts₀]

def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S3200x6_S6x128_S3200x128_1_0_0_1_n_n : DotDims S3200x6 S6x128 S3200x128 where
  lhsContracting := [1]
  rhsContracting := [0]
  lhsNonContracting := [0]
  rhsNonContracting := [1]
  lhsBatch := []
  rhsBatch := []
  wf := dot_S3200x6_S6x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf

abbrev win0_0 : Pipeline.Window sig grid0 :=
  Pipeline.Window.ofSpec (Memref.whole main_v13) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S3200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S3200x6.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S6x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v41) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42) S3200x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000 : Shape := ⟨1, ![100000]⟩
abbrev S100000x128 : Shape := ⟨2, ![100000, 128]⟩
abbrev S800000x6 : Shape := ⟨2, ![800000, 6]⟩
abbrev S800000 : Shape := ⟨1, ![800000]⟩
abbrev S95x128 : Shape := ⟨2, ![95, 128]⟩
abbrev S6x128 : Shape := ⟨2, ![6, 128]⟩
abbrev S128 : Shape := ⟨1, ![128]⟩
abbrev S640x128 : Shape := ⟨2, ![640, 128]⟩
abbrev S_ : Shape := ⟨0, ![]⟩
abbrev S100000x1 : Shape := ⟨2, ![100000, 1]⟩
abbrev S800000x128 : Shape := ⟨2, ![800000, 128]⟩
abbrev S1x128 : Shape := ⟨2, ![1, 128]⟩
abbrev S128x128 : Shape := ⟨2, ![128, 128]⟩
abbrev S800000x1 : Shape := ⟨2, ![800000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000x128, .f32⟩
  | .hbm, ⟨2, _⟩ => ⟨S800000x6, .f32⟩
  | .hbm, ⟨3, _⟩ => ⟨S800000, .i32⟩
  | .hbm, ⟨4, _⟩ => ⟨S800000, .i32⟩
  | .hbm, ⟨5, _⟩ => ⟨S95x128, .f32⟩
  | .hbm, ⟨6, _⟩ => ⟨S6x128, .f32⟩
  | .hbm, ⟨7, _⟩ => ⟨S128, .f32⟩
  | .hbm, ⟨8, _⟩ => ⟨S640x128, .f32⟩
  | .hbm, ⟨9, _⟩ => ⟨S128, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x128, .f32⟩
  | .hbm, ⟨19, _⟩ => ⟨S800000x128, .f32⟩
  | .hbm, ⟨20, _⟩ => ⟨S1x128, .f32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S800000x128, .f32⟩
  | .hbm, ⟨82, _⟩ => ⟨S1x128, .f32⟩
  | .hbm, ⟨83, _⟩ => ⟨S800000x128, .f32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S800000x128, .f32⟩
  | .hbm, ⟨89, _⟩ => ⟨S800000x128, .f32⟩
  | .hbm, ⟨90, _⟩ => ⟨S_, .f32⟩
  | .hbm, ⟨91, _⟩ => ⟨S800000x128, .f32⟩
  | .hbm, ⟨92, _⟩ => ⟨S800000x128, .f32⟩
  | .hbm, ⟨93, _⟩ => ⟨S800000x128, .f32⟩
  | .hbm, ⟨94, _⟩ => ⟨S_, .i32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S640x128_S128x128_0_0 : S640x128.Slices ![0, 0] S128x128
  slices_S640x128_S128x128_128_0 : S640x128.Slices ![128, 0] S128x128
  slices_S640x128_S128x128_256_0 : S640x128.Slices ![256, 0] S128x128
  slices_S640x128_S128x128_384_0 : S640x128.Slices ![384, 0] S128x128
  slices_S640x128_S128x128_512_0 : S640x128.Slices ![512, 0] S128x128
  bcast_S_S800000 : S_.BroadcastsInDim S800000 (![] : Fin 0 → Fin S800000.rank)
  bcast_S800000_S800000x1_0 : S800000.BroadcastsInDim S800000x1 (![0] : Fin 1 → Fin S800000x1.rank)
  gather_S95x128_S100000x1_S100000x128_1_0_n_n_0_1_1128_wf : GatherDims.WF S95x128 S100000x1 S100000x128 [1] [0] [] [0] [] 1 ![1, 128]
  dot_S800000x6_S6x128_S800000x128_1_0_0_1_n_n_wf : DotDims.WF S800000x6 S6x128 S800000x128 [1] [0] [0] [1] [] []
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []

variable [Facts₀]

def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def dot_S800000x6_S6x128_S800000x128_1_0_0_1_n_n : DotDims S800000x6 S6x128 S800000x128 where
  lhsContracting := [1]
  rhsContracting := [0]
  lhsNonContracting := [0]
  rhsNonContracting := [1]
  lhsBatch := []
  rhsBatch := []
  wf := dot_S800000x6_S6x128_S800000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.Spec.lean ====
/-
  The edge-message function, index by index, over the extended reals.

  For every edge p and output feature q the result is

      swish ( Σ_k xi(p,k)·W1(k,q) + Σ_k ci(p,k)·W2(k,q) + Σ_k xj(p,k)·W3(k,q) + Σ_k cj(p,k)·W4(k,q)
              + Σ_k swish( Σ_r rbf(p,r)·Wr(r,k) + br(k) ) · W5(k,q) + b(q) ),

  the five products added from the left in that order, where swish v = v / (1 + exp(−v)).  Row p of the result
  depends on row p of the edge arrays only, so the same formula describes a block of rows and the whole array.

  Two spellings of swish meet here.  One divides v by 1 + exp(0 − v); the other multiplies v by the quotient
  1 / (1 + exp(−v)).  On the extended reals exp is never negative, so 1 + exp(x) is at least 1 and in particular
  not zero; for a divisor that is not zero the quotient v / d is the product v · d⁻¹, and 1 / d is d⁻¹, so the two
  spellings agree at every extended real, the infinities included.  No finiteness is used.
-/
import Idealize.ShloMosaic.PureOps.Ideal.Laws
import Idealize.ShloMosaic.Lib.ValueIdx
import Idealize.ShloMosaic.Lib.IdealHost

noncomputable section

namespace EdgeSpec

open Idealize.ShloMosaic Idealize.ShloMosaic.ValueIdx

/-- The exponential of an extended real is not negative. -/
theorem exp_nonneg (x : EReal) : 0 ≤ Ideal.exp x := by
  induction x using EReal.rec with
  | bot => exact le_of_eq rfl
  | top => exact le_top
  | coe r => exact EReal.coe_nonneg.mpr (Real.exp_pos r).le

/-- One plus an exponential is not zero. -/
theorem one_add_exp_ne_zero (x : EReal) : (1 : EReal) + Ideal.exp x ≠ 0 := by
  have h1 : (1 : EReal) ≤ 1 + Ideal.exp x := le_add_of_nonneg_right (exp_nonneg x)
  intro e; rw [e] at h1; exact absurd h1 (by simp)

/-- swish v = v / (1 + exp(−v)). -/
def swish (v : EReal) : EReal := Ideal.div v (1 + Ideal.exp (-v))

/-- The spelling that negates by subtracting from the zero word and divides v itself. -/
theorem swish_of_sub (v : EReal) :
    Ideal.div v (Ideal.ofBits .f32 0x3F800000#32 + Ideal.exp (Ideal.ofBits .f32 0x00000000#32 - v)) = swish v := by
  rw [Ideal.ofBits_one_f32, Ideal.ofBits_zero_f32, zero_sub]; rfl

/-- The spelling that multiplies v by the quotient of one by the divisor. -/
theorem swish_of_mul (v : EReal) :
    v * Ideal.div (Ideal.ofBits .f32 0x3F800000#32) (Ideal.ofBits .f32 0x3F800000#32 + Ideal.exp (-v)) = swish v := by
  rw [Ideal.ofBits_one_f32]
  exact Ideal.mul_one_div (one_add_exp_ne_zero _)

variable {n : Nat}

/-- The radial pre-activation: row p of rbf against column k of the radial weights, plus the radial bias. -/
def radial (rbf : (⟨2, ![n, 6]⟩ : Shape).Idx → EReal) (wr : (⟨2, ![6, 128]⟩ : Shape).Idx → EReal)
    (br : (⟨1, ![128]⟩ : Shape).Idx → EReal) (p : Fin n) (k : Fin 128) : EReal :=
  (∑ r : Fin 6, rbf (ix2 p r) * wr (ix2 r k)) + br (ix1 k)

/-- The pre-activation of the edge message at (p, q): five row-by-column products added from the left, then the bias. -/
def pre (xi ci xj cj : (⟨2, ![n, 128]⟩ : Shape).Idx → EReal) (rbf : (⟨2, ![n, 6]⟩ : Shape).Idx → EReal)
    (wr : (⟨2, ![6, 128]⟩ : Shape).Idx → EReal) (br : (⟨1, ![128]⟩ : Shape).Idx → EReal)
    (w1 w2 w3 w4 w5 : (⟨2, ![128, 128]⟩ : Shape).Idx → EReal) (b : (⟨1, ![128]⟩ : Shape).Idx → EReal)
    (p : Fin n) (q : Fin 128) : EReal :=
  ((((∑ k : Fin 128, xi (ix2 p k) * w1 (ix2 k q)) + ∑ k : Fin 128, ci (ix2 p k) * w2 (ix2 k q))
      + ∑ k : Fin 128, xj (ix2 p k) * w3 (ix2 k q))
      + ∑ k : Fin 128, cj (ix2 p k) * w4 (ix2 k q))
      + (∑ k : Fin 128, swish (radial rbf wr br p k) * w5 (ix2 k q))
    + b (ix1 q)

/-- The edge message at (p, q). -/
def msg (xi ci xj cj : (⟨2, ![n, 128]⟩ : Shape).Idx → EReal) (rbf : (⟨2, ![n, 6]⟩ : Shape).Idx → EReal)
    (wr : (⟨2, ![6, 128]⟩ : Shape).Idx → EReal) (br : (⟨1, ![128]⟩ : Shape).Idx → EReal)
    (w1 w2 w3 w4 w5 : (⟨2, ![128, 128]⟩ : Shape).Idx → EReal) (b : (⟨1, ![128]⟩ : Shape).Idx → EReal)
    (p : Fin n) (q : Fin 128) : EReal :=
  swish (pre xi ci xj cj rbf wr br w1 w2 w3 w4 w5 b p q)

/-- The whole array of edge messages. -/
def G (xi ci xj cj : (⟨2, ![n, 128]⟩ : Shape).Idx → EReal) (rbf : (⟨2, ![n, 6]⟩ : Shape).Idx → EReal)
    (wr : (⟨2, ![6, 128]⟩ : Shape).Idx → EReal) (br : (⟨1, ![128]⟩ : Shape).Idx → EReal)
    (w1 w2 w3 w4 w5 : (⟨2, ![128, 128]⟩ : Shape).Idx → EReal) (b : (⟨1, ![128]⟩ : Shape).Idx → EReal) :
    (⟨2, ![n, 128]⟩ : Shape).Idx → EReal :=
  fun i => msg xi ci xj cj rbf wr br w1 w2 w3 w4 w5 b (i 0) (i 1)

theorem G_ix2 (xi ci xj cj : (⟨2, ![n, 128]⟩ : Shape).Idx → EReal) (rbf : (⟨2, ![n, 6]⟩ : Shape).Idx → EReal)
    (wr : (⟨2, ![6, 128]⟩ : Shape).Idx → EReal) (br : (⟨1, ![128]⟩ : Shape).Idx → EReal)
    (w1 w2 w3 w4 w5 : (⟨2, ![128, 128]⟩ : Shape).Idx → EReal) (b : (⟨1, ![128]⟩ : Shape).Idx → EReal)
    (p : Fin n) (q : Fin 128) :
    G xi ci xj cj rbf wr br w1 w2 w3 w4 w5 b (ix2 p q) = msg xi ci xj cj rbf wr br w1 w2 w3 w4 w5 b p q := rfl

end EdgeSpec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.RefValue.lean ====
/-
  The reference computes the edge message.

  Its last stage multiplies the pre-activation by the quotient 1 / (1 + exp(−pre)), which is swish of the
  pre-activation; the pre-activation is the five matrix products added from the left and the bias, broadcast down the
  rows.  Each product of the 800000-row array with a 128×128 slice of the weights is the row-by-column sum; the radial
  activation is swish of the radial product plus the radial bias.  The four edge-feature arrays are whatever the
  gathers produce and the five weight blocks whatever the slices produce: they stay as they are, as arguments of the
  specification.
-/
import proofs.«118866_j55387898250013_1_alg».proof.Proof.Gen.ReferenceIdeal.Run
import proofs.«118866_j55387898250013_1_alg».proof.Proof.Gen.ReferenceIdeal.Read
import proofs.«118866_j55387898250013_1_alg».proof.Proof.Spec
import proofs.«118866_j55387898250013_1_alg».proof.Proof.LibPlainDot
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- The 800000-row array against a 128×128 block: the row-by-column sum. -/
theorem dot128 (l : FVec Ideal S800000x128 .f32) (r : FVec Ideal S128x128 .f32) (p : Fin 800000) (q : Fin 128) :
    Host.dotGeneral dot_S800000x128_S128x128_S800000x128_1_0_0_1_n_n none l r (ix2 p q)
      = ∑ k : Fin 128, l (ix2 p k) * r (ix2 k q) := by
  simp only [Host.dotGeneral]
  rw [Ideal.dotGeneral_apply]
  exact PlainDot.sum_eq dot_S800000x128_S128x128_S800000x128_1_0_0_1_n_n rfl rfl rfl rfl rfl rfl l r p q

/-- The radial features against the radial weights: the row-by-column sum over six terms. -/
theorem dot6 (l : FVec Ideal S800000x6 .f32) (r : FVec Ideal S6x128 .f32) (p : Fin 800000) (q : Fin 128) :
    Host.dotGeneral dot_S800000x6_S6x128_S800000x128_1_0_0_1_n_n none l r (ix2 p q)
      = ∑ k : Fin 6, l (ix2 p k) * r (ix2 k q) := by
  simp only [Host.dotGeneral]
  rw [Ideal.dotGeneral_apply]
  exact PlainDot.sum_eq dot_S800000x6_S6x128_S800000x128_1_0_0_1_n_n rfl rfl rfl rfl rfl rfl l r p q

variable (x0 : (⟨S100000, .i32⟩ : BufTy).Contents (Elt Ideal)) (x1 : (⟨S100000x128, .f32⟩ : BufTy).Contents (Elt Ideal))
  (x2 : (⟨S800000x6, .f32⟩ : BufTy).Contents (Elt Ideal)) (x3 x4 : (⟨S800000, .i32⟩ : BufTy).Contents (Elt Ideal))
  (x5 : (⟨S95x128, .f32⟩ : BufTy).Contents (Elt Ideal)) (x6 : (⟨S6x128, .f32⟩ : BufTy).Contents (Elt Ideal))
  (x7 : (⟨S128, .f32⟩ : BufTy).Contents (Elt Ideal)) (x8 : (⟨S640x128, .f32⟩ : BufTy).Contents (Elt Ideal))
  (x9 : (⟨S128, .f32⟩ : BufTy).Contents (Elt Ideal))

/-- The radial pre-activation at (p, k). -/
theorem radial_eq (p : Fin 800000) (k : Fin 128) :
    val_main_v10 (F := Ideal) x2 x6 x7 (ix2 p k) = EdgeSpec.radial x2 x6 x7 p k := by
  rw [val_main_v10_apply]
  unfold EdgeSpec.radial
  refine congrArg₂ (· + ·) ?_ ?_
  · unfold val_main_v7; exact dot6 x2 x6 p k
  · rw [val_main_v9_apply, val_main_v8_apply]
    exact congrArg x7 (funext fun a => by match a with | ⟨0, _⟩ => rfl)

/-- The radial activation is swish of the radial pre-activation. -/
theorem act_radial (i : S800000x128.Idx) :
    val_main_v17 (F := Ideal) x2 x6 x7 i = EdgeSpec.swish (val_main_v10 (F := Ideal) x2 x6 x7 i) := by
  rw [val_main_v17_apply, val_main_v16_apply, val_main_v15_apply, val_main_cst_1_apply, val_main_v14_apply,
    val_main_v13_apply, val_main_cst_apply, val_main_v12_apply, val_main_v11_apply]
  exact EdgeSpec.swish_of_mul _

/-- The result is swish of the pre-activation. -/
theorem act_out (i : S800000x128.Idx) :
    val_main_v69 (F := Ideal) x0 x1 x2 x3 x4 x5 x6 x7 x8 x9 i
      = EdgeSpec.swish (val_main_v62 (F := Ideal) x0 x1 x2 x3 x4 x5 x6 x7 x8 x9 i) := by
  rw [val_main_v69_apply, val_main_v68_apply, val_main_v67_apply, val_main_cst_11_apply, val_main_v66_apply,
    val_main_v65_apply, val_main_cst_10_apply, val_main_v64_apply, val_main_v63_apply]
  exact EdgeSpec.swish_of_mul _

/-- The output bias broadcast down the rows reads the bias at the column. -/
theorem bias_eq (p : Fin 800000) (q : Fin 128) : val_main_v61 (F := Ideal) x9 (ix2 p q) = x9 (ix1 q) := by
  rw [val_main_v61_apply, val_main_v60_apply]
  exact congrArg x9 (funext fun a => by match a with | ⟨0, _⟩ => rfl)

/-- The reference's result is the specification's array of edge messages, of the gathered edge features, the radial
    features, the radial weights and bias, the five slices of the weights and the bias. -/
theorem result_eq :
    val_main_v69 (F := Ideal) x0 x1 x2 x3 x4 x5 x6 x7 x8 x9
      = EdgeSpec.G (val_main_v29 (F := Ideal) x0 x3 x5) (val_main_v37 (F := Ideal) x1 x3) (val_main_v46 (F := Ideal) x0 x4 x5)
          (val_main_v55 (F := Ideal) x1 x4) x2 x6 x7 (val_main_v18 (F := Ideal) x8) (val_main_v19 (F := Ideal) x8)
          (val_main_v20 (F := Ideal) x8) (val_main_v21 (F := Ideal) x8) (val_main_v22 (F := Ideal) x8) x9 := by
  funext i
  obtain ⟨p, q, rfl⟩ : ∃ (p : Fin 800000) (q : Fin 128), i = ix2 p q := ⟨i 0, i 1, eq_ix2 i⟩
  rw [EdgeSpec.G_ix2, act_out]
  unfold EdgeSpec.msg
  refine congrArg EdgeSpec.swish ?_
  unfold EdgeSpec.pre
  rw [val_main_v62_apply, val_main_v59_apply, val_main_v57_apply, val_main_v48_apply, val_main_v39_apply, bias_eq]
  unfold val_main_v30 val_main_v38 val_main_v47 val_main_v56 val_main_v58
  rw [dot128, dot128, dot128, dot128, dot128]
  simp only [act_radial, radial_eq]
  rfl

end Cert.ReferenceIdeal.RefValue

end
-- ==== Proof.KernelPayload.lean ====
/-
  What the kernel body stores, read at one entry of its block.

  The body loads whole blocks: four edge-feature blocks of 3200 rows, a 3200-row block of the radial features, the
  radial weights and bias, five square weight blocks and the output bias.  Every rounding to a narrower float format
  is the identity on the extended reals, a shape cast to the same shape is the identity, a matrix product into a zero
  accumulator is the row-by-column sum, and the one-row bias broadcast down the rows reads the bias at the column.  So the
  stored value at (p, q) is the edge message of the specification, computed from the blocks' rows p.
-/
import proofs.«118866_j55387898250013_1_alg».proof.Proof.Gen.KernelIdeal.Skeleton
import proofs.«118866_j55387898250013_1_alg».proof.Proof.Spec
import proofs.«118866_j55387898250013_1_alg».proof.Proof.LibPlainDot
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-- A one-row matrix as the vector of its row. -/
def row (x : Vec Ideal S1x128 .f32) : (⟨1, ![128]⟩ : Shape).Idx → EReal := fun j => x (ix2 (0 : Fin 1) (j 0))

theorem row_ix1 (x : Vec Ideal S1x128 .f32) (q : Fin 128) : row x (ix1 q) = x (ix2 (0 : Fin 1) q) := rfl

/-- A block of 3200 rows against a square weight block, into a zero accumulator: the row-by-column sum. -/
theorem dot128 {φ₁ φ₂ : FTy} (l : FVec Ideal S3200x128 φ₁) (r : FVec Ideal S128x128 φ₂) (p : Fin 3200) (q : Fin 128) :
    matmul dot_S3200x128_S128x128_S3200x128_1_0_0_1_n_n none l r (constant S3200x128 .f32 0x00000000#32) (ix2 p q)
      = ∑ k : Fin 128, l (ix2 p k) * r (ix2 k q) :=
  (Ideal.matmul_constant_zero_apply dot_S3200x128_S128x128_S3200x128_1_0_0_1_n_n none l r (ix2 p q)).trans
    (PlainDot.sum_eq dot_S3200x128_S128x128_S3200x128_1_0_0_1_n_n rfl rfl rfl rfl rfl rfl l r p q)

/-- The radial block against the radial weights, into a zero accumulator: the row-by-column sum over six terms. -/
theorem dot6 {φ₁ φ₂ : FTy} (l : FVec Ideal S3200x6 φ₁) (r : FVec Ideal S6x128 φ₂) (p : Fin 3200) (q : Fin 128) :
    matmul dot_S3200x6_S6x128_S3200x128_1_0_0_1_n_n none l r (constant S3200x128 .f32 0x00000000#32) (ix2 p q)
      = ∑ k : Fin 6, l (ix2 p k) * r (ix2 k q) :=
  (Ideal.matmul_constant_zero_apply dot_S3200x6_S6x128_S3200x128_1_0_0_1_n_n none l r (ix2 p q)).trans
    (PlainDot.sum_eq dot_S3200x6_S6x128_S3200x128_1_0_0_1_n_n rfl rfl rfl rfl rfl rfl l r p q)

/-- A one-row matrix broadcast down 3200 rows reads the row at the column. -/
theorem bcast_row (x : FVec Ideal S1x128 .f32) (p : Fin 3200) (q : Fin 128) :
    broadcastTo S3200x128 x broadcasts_S1x128_S3200x128 (ix2 p q) = x (ix2 (0 : Fin 1) q) :=
  broadcastTo_apply x broadcasts_S1x128_S3200x128 (ix2 p q) (ix2 (0 : Fin 1) q) (fun a => by
    match a with
    | ⟨0, _⟩ => rfl
    | ⟨1, _⟩ => rfl)

/-- v / (1 + exp(0 − v)), entry by entry, is swish of the entry. -/
theorem swish_vec (v : FVec Ideal S3200x128 .f32) (i : S3200x128.Idx) :
    divf v (addf (broadcast S3200x128 (Scalar.ofBits .f32 0x3F800000#32))
      (exp (subf (broadcast S3200x128 (Scalar.ofBits .f32 0x00000000#32)) v))) i = EdgeSpec.swish (v i) :=
  EdgeSpec.swish_of_sub (v i)

/-- The radial activation the body computes, at (p, k). -/
theorem radial_apply (x4 : Vec Ideal S3200x6 .f32) (x5 : Vec Ideal S6x128 .f32) (x6 : Vec Ideal S1x128 .f32)
    (p : Fin 3200) (k : Fin 128) :
    k0_pay2 (F := Ideal) x4 x5 x6 (ix2 p k) = EdgeSpec.swish (EdgeSpec.radial x4 x5 (row x6) p k) := by
  unfold k0_pay2
  simp only [shapeCast_self]
  refine (swish_vec _ _).trans (congrArg EdgeSpec.swish ?_)
  unfold EdgeSpec.radial
  simp only [addf_apply, dot6, truncf_apply, bcast_row, row_ix1]

/-- The stored value at (p, q) is the edge message of the blocks. -/
theorem stored_apply (x0 x1 x2 x3 : Vec Ideal S3200x128 .f32) (x4 : Vec Ideal S3200x6 .f32) (x5 : Vec Ideal S6x128 .f32)
    (x6 : Vec Ideal S1x128 .f32) (x7 x8 x9 x10 x11 : Vec Ideal S128x128 .f32) (x12 : Vec Ideal S1x128 .f32)
    (p : Fin 3200) (q : Fin 128) :
    k0_pay1 (F := Ideal) (k0_pay2 x4 x5 x6) (k0_pay3 x0 x7 x1 x8) (k0_pay4 x2) (k0_pay5 x9) x3 x10 x11 x12 (ix2 p q)
      = EdgeSpec.msg x0 x1 x2 x3 x4 x5 (row x6) x7 x8 x9 x10 x11 (row x12) p q := by
  unfold k0_pay1 k0_pay3 k0_pay4 k0_pay5
  simp only [shapeCast_self]
  refine (swish_vec _ _).trans (congrArg EdgeSpec.swish ?_)
  unfold EdgeSpec.pre
  simp only [addf_apply, dot128, truncf_apply, bcast_row, row_ix1, radial_apply]

end Cert.KernelIdeal.Payload

end
-- ==== Proof.KernelValue.lean ====
/-
  The kernel's result array after the run is the specification's array of edge messages.

  The grid has 250 points; point t stages rows 3200·t … 3200·t + 3199 of the four edge-feature arrays and of the
  radial features, and the whole of the radial weights, the five weight blocks and the two one-row biases, and writes
  back rows 3200·t … 3200·t + 3199 of the result.  The stored block is the edge message of the staged blocks, and row p
  of a staged block is row 3200·t + p of its array, so point t writes block t of the one whole-array function.  The
  250 blocks tile the 800000 rows: row r is in the block of point r / 3200.
-/
import proofs.«118866_j55387898250013_1_alg».proof.Proof.Gen.KernelIdeal.Frame
import proofs.«118866_j55387898250013_1_alg».proof.Proof.KernelPayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Payload

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, and the blocks a point stages -/

abbrev aXi (c : Dev nD) : Vec Ideal S800000x128 .f32 := V m c main_v13
abbrev aCi (c : Dev nD) : Vec Ideal S800000x128 .f32 := V m c main_v27
abbrev aXj (c : Dev nD) : Vec Ideal S800000x128 .f32 := V m c main_v20
abbrev aCj (c : Dev nD) : Vec Ideal S800000x128 .f32 := V m c main_v34
abbrev aRbf (c : Dev nD) : Vec Ideal S800000x6 .f32 := V m c main_arg2
abbrev aWr (c : Dev nD) : Vec Ideal S6x128 .f32 := V m c main_arg6
abbrev aBr (c : Dev nD) : Vec Ideal S1x128 .f32 := V m c main_v40
abbrev aW1 (c : Dev nD) : Vec Ideal S128x128 .f32 := V m c main_v35
abbrev aW2 (c : Dev nD) : Vec Ideal S128x128 .f32 := V m c main_v36
abbrev aW3 (c : Dev nD) : Vec Ideal S128x128 .f32 := V m c main_v37
abbrev aW4 (c : Dev nD) : Vec Ideal S128x128 .f32 := V m c main_v38
abbrev aW5 (c : Dev nD) : Vec Ideal S128x128 .f32 := V m c main_v39
abbrev aB (c : Dev nD) : Vec Ideal S1x128 .f32 := V m c main_v41

abbrev bXi (c : Dev nD) (t : Fin cfg0.N) : Vec Ideal S3200x128 .f32 := iblk m c 0 t
abbrev bCi (c : Dev nD) (t : Fin cfg0.N) : Vec Ideal S3200x128 .f32 := iblk m c 1 t
abbrev bXj (c : Dev nD) (t : Fin cfg0.N) : Vec Ideal S3200x128 .f32 := iblk m c 2 t
abbrev bCj (c : Dev nD) (t : Fin cfg0.N) : Vec Ideal S3200x128 .f32 := iblk m c 3 t
abbrev bRbf (c : Dev nD) (t : Fin cfg0.N) : Vec Ideal S3200x6 .f32 := iblk m c 4 t
abbrev bWr (c : Dev nD) (t : Fin cfg0.N) : Vec Ideal S6x128 .f32 := iblk m c 5 t
abbrev bBr (c : Dev nD) (t : Fin cfg0.N) : Vec Ideal S1x128 .f32 := iblk m c 6 t
abbrev bW1 (c : Dev nD) (t : Fin cfg0.N) : Vec Ideal S128x128 .f32 := iblk m c 7 t
abbrev bW2 (c : Dev nD) (t : Fin cfg0.N) : Vec Ideal S128x128 .f32 := iblk m c 8 t
abbrev bW3 (c : Dev nD) (t : Fin cfg0.N) : Vec Ideal S128x128 .f32 := iblk m c 9 t
abbrev bW4 (c : Dev nD) (t : Fin cfg0.N) : Vec Ideal S128x128 .f32 := iblk m c 10 t
abbrev bW5 (c : Dev nD) (t : Fin cfg0.N) : Vec Ideal S128x128 .f32 := iblk m c 11 t
abbrev bB (c : Dev nD) (t : Fin cfg0.N) : Vec Ideal S1x128 .f32 := iblk m c 12 t

/-- The whole result: the edge messages of the arrays the region finds. -/
abbrev result (c : Dev nD) : Vec Ideal S800000x128 .f32 :=
  EdgeSpec.G (aXi m c) (aCi m c) (aXj m c) (aCj m c) (aRbf m c) (aWr m c) (row (aBr m c))
    (aW1 m c) (aW2 m c) (aW3 m c) (aW4 m c) (aW5 m c) (row (aB m c))

/-! ## The index maps over the grid -/

/-- The row windows (the four edge-feature arrays, the radial features, the result) sit at block row t and block
    column 0 at point t; the others at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = t.val ∧ win0_13.index t (1 : Fin 2) = 0) :=
  (by decide +kernel : ∀ t : Fin grid0.N, _)

theorem lt_grid (t : Fin cfg0.N) : t.val < 250 := lt_of_lt_of_eq t.isLt N_0

/-- Row p of the block of point t is row 3200·t + p of the array. -/
def rowOf (t : Fin cfg0.N) (p : Fin 3200) : Fin 800000 :=
  ⟨t.val * 3200 + p.val, by have := lt_grid t; have := p.isLt; omega⟩

/-! ## Each staged block as rows of its array -/

theorem bXi_apply (c : Dev nD) (t : Fin cfg0.N) (p : Fin 3200) (k : Fin 128) :
    bXi m c t (ix2 p k) = aXi m c (ix2 (rowOf t p) k) := by
  have hi := (idx_facts t).1
  show V m c main_v13 (((cfg0.win 0).blk t).view.emb (ix2 p k)) = V m c main_v13 (ix2 (rowOf t p) k)
  refine congrArg (V m c main_v13) (funext fun a => Fin.ext ?_)
  match a with
  | ⟨0, _⟩ => show win0_0.index t (0 : Fin 2) * 3200 + 1 * p.val = t.val * 3200 + p.val; rw [hi.1]; omega
  | ⟨1, _⟩ => show win0_0.index t (1 : Fin 2) * 128 + 1 * k.val = k.val; rw [hi.2]; omega

theorem bCi_apply (c : Dev nD) (t : Fin cfg0.N) (p : Fin 3200) (k : Fin 128) :
    bCi m c t (ix2 p k) = aCi m c (ix2 (rowOf t p) k) := by
  have hi := (idx_facts t).2.1
  show V m c main_v27 (((cfg0.win 1).blk t).view.emb (ix2 p k)) = V m c main_v27 (ix2 (rowOf t p) k)
  refine congrArg (V m c main_v27) (funext fun a => Fin.ext ?_)
  match a with
  | ⟨0, _⟩ => show win0_1.index t (0 : Fin 2) * 3200 + 1 * p.val = t.val * 3200 + p.val; rw [hi.1]; omega
  | ⟨1, _⟩ => show win0_1.index t (1 : Fin 2) * 128 + 1 * k.val = k.val; rw [hi.2]; omega

theorem bXj_apply (c : Dev nD) (t : Fin cfg0.N) (p : Fin 3200) (k : Fin 128) :
    bXj m c t (ix2 p k) = aXj m c (ix2 (rowOf t p) k) := by
  have hi := (idx_facts t).2.2.1
  show V m c main_v20 (((cfg0.win 2).blk t).view.emb (ix2 p k)) = V m c main_v20 (ix2 (rowOf t p) k)
  refine congrArg (V m c main_v20) (funext fun a => Fin.ext ?_)
  match a with
  | ⟨0, _⟩ => show win0_2.index t (0 : Fin 2) * 3200 + 1 * p.val = t.val * 3200 + p.val; rw [hi.1]; omega
  | ⟨1, _⟩ => show win0_2.index t (1 : Fin 2) * 128 + 1 * k.val = k.val; rw [hi.2]; omega

theorem bCj_apply (c : Dev nD) (t : Fin cfg0.N) (p : Fin 3200) (k : Fin 128) :
    bCj m c t (ix2 p k) = aCj m c (ix2 (rowOf t p) k) := by
  have hi := (idx_facts t).2.2.2.1
  show V m c main_v34 (((cfg0.win 3).blk t).view.emb (ix2 p k)) = V m c main_v34 (ix2 (rowOf t p) k)
  refine congrArg (V m c main_v34) (funext fun a => Fin.ext ?_)
  match a with
  | ⟨0, _⟩ => show win0_3.index t (0 : Fin 2) * 3200 + 1 * p.val = t.val * 3200 + p.val; rw [hi.1]; omega
  | ⟨1, _⟩ => show win0_3.index t (1 : Fin 2) * 128 + 1 * k.val = k.val; rw [hi.2]; omega

theorem bRbf_apply (c : Dev nD) (t : Fin cfg0.N) (p : Fin 3200) (k : Fin 6) :
    bRbf m c t (ix2 p k) = aRbf m c (ix2 (rowOf t p) k) := by
  have hi := (idx_facts t).2.2.2.2.1
  show V m c main_arg2 (((cfg0.win 4).blk t).view.emb (ix2 p k)) = V m c main_arg2 (ix2 (rowOf t p) k)
  refine congrArg (V m c main_arg2) (funext fun a => Fin.ext ?_)
  match a with
  | ⟨0, _⟩ => show win0_4.index t (0 : Fin 2) * 3200 + 1 * p.val = t.val * 3200 + p.val; rw [hi.1]; omega
  | ⟨1, _⟩ => show win0_4.index t (1 : Fin 2) * 6 + 1 * k.val = k.val; rw [hi.2]; omega

/-! ## Each whole-array window's block is its array -/

theorem bWr_eq (c : Dev nD) (t : Fin cfg0.N) : bWr m c t = aWr m c := by
  have hi := (idx_facts t).2.2.2.2.2.1
  funext y
  show V m c main_arg6 (((cfg0.win 5).blk t).view.emb y) = V m c main_arg6 y
  refine congrArg (V m c main_arg6) (funext fun a => Fin.ext ?_)
  match a with
  | ⟨0, _⟩ => show win0_5.index t (0 : Fin 2) * 6 + 1 * (y 0).val = (y 0).val; rw [hi.1]; omega
  | ⟨1, _⟩ => show win0_5.index t (1 : Fin 2) * 128 + 1 * (y 1).val = (y 1).val; rw [hi.2]; omega

theorem bBr_eq (c : Dev nD) (t : Fin cfg0.N) : bBr m c t = aBr m c := by
  have hi := (idx_facts t).2.2.2.2.2.2.1
  funext y
  show V m c main_v40 (((cfg0.win 6).blk t).view.emb y) = V m c main_v40 y
  refine congrArg (V m c main_v40) (funext fun a => Fin.ext ?_)
  match a with
  | ⟨0, _⟩ => show win0_6.index t (0 : Fin 2) * 1 + 1 * (y 0).val = (y 0).val; rw [hi.1]; omega
  | ⟨1, _⟩ => show win0_6.index t (1 : Fin 2) * 128 + 1 * (y 1).val = (y 1).val; rw [hi.2]; omega

theorem bW1_eq (c : Dev nD) (t : Fin cfg0.N) : bW1 m c t = aW1 m c := by
  have hi := (idx_facts t).2.2.2.2.2.2.2.1
  funext y
  show V m c main_v35 (((cfg0.win 7).blk t).view.emb y) = V m c main_v35 y
  refine congrArg (V m c main_v35) (funext fun a => Fin.ext ?_)
  match a with
  | ⟨0, _⟩ => show win0_7.index t (0 : Fin 2) * 128 + 1 * (y 0).val = (y 0).val; rw [hi.1]; omega
  | ⟨1, _⟩ => show win0_7.index t (1 : Fin 2) * 128 + 1 * (y 1).val = (y 1).val; rw [hi.2]; omega

theorem bW2_eq (c : Dev nD) (t : Fin cfg0.N) : bW2 m c t = aW2 m c := by
  have hi := (idx_facts t).2.2.2.2.2.2.2.2.1
  funext y
  show V m c main_v36 (((cfg0.win 8).blk t).view.emb y) = V m c main_v36 y
  refine congrArg (V m c main_v36) (funext fun a => Fin.ext ?_)
  match a with
  | ⟨0, _⟩ => show win0_8.index t (0 : Fin 2) * 128 + 1 * (y 0).val = (y 0).val; rw [hi.1]; omega
  | ⟨1, _⟩ => show win0_8.index t (1 : Fin 2) * 128 + 1 * (y 1).val = (y 1).val; rw [hi.2]; omega

theorem bW3_eq (c : Dev nD) (t : Fin cfg0.N) : bW3 m c t = aW3 m c := by
  have hi := (idx_facts t).2.2.2.2.2.2.2.2.2.1
  funext y
  show V m c main_v37 (((cfg0.win 9).blk t).view.emb y) = V m c main_v37 y
  refine congrArg (V m c main_v37) (funext fun a => Fin.ext ?_)
  match a with
  | ⟨0, _⟩ => show win0_9.index t (0 : Fin 2) * 128 + 1 * (y 0).val = (y 0).val; rw [hi.1]; omega
  | ⟨1, _⟩ => show win0_9.index t (1 : Fin 2) * 128 + 1 * (y 1).val = (y 1).val; rw [hi.2]; omega

theorem bW4_eq (c : Dev nD) (t : Fin cfg0.N) : bW4 m c t = aW4 m c := by
  have hi := (idx_facts t).2.2.2.2.2.2.2.2.2.2.1
  funext y
  show V m c main_v38 (((cfg0.win 10).blk t).view.emb y) = V m c main_v38 y
  refine congrArg (V m c main_v38) (funext fun a => Fin.ext ?_)
  match a with
  | ⟨0, _⟩ => show win0_10.index t (0 : Fin 2) * 128 + 1 * (y 0).val = (y 0).val; rw [hi.1]; omega
  | ⟨1, _⟩ => show win0_10.index t (1 : Fin 2) * 128 + 1 * (y 1).val = (y 1).val; rw [hi.2]; omega

theorem bW5_eq (c : Dev nD) (t : Fin cfg0.N) : bW5 m c t = aW5 m c := by
  have hi := (idx_facts t).2.2.2.2.2.2.2.2.2.2.2.1
  funext y
  show V m c main_v39 (((cfg0.win 11).blk t).view.emb y) = V m c main_v39 y
  refine congrArg (V m c main_v39) (funext fun a => Fin.ext ?_)
  match a with
  | ⟨0, _⟩ => show win0_11.index t (0 : Fin 2) * 128 + 1 * (y 0).val = (y 0).val; rw [hi.1]; omega
  | ⟨1, _⟩ => show win0_11.index t (1 : Fin 2) * 128 + 1 * (y 1).val = (y 1).val; rw [hi.2]; omega

theorem bB_eq (c : Dev nD) (t : Fin cfg0.N) : bB m c t = aB m c := by
  have hi := (idx_facts t).2.2.2.2.2.2.2.2.2.2.2.2.1
  funext y
  show V m c main_v41 (((cfg0.win 12).blk t).view.emb y) = V m c main_v41 y
  refine congrArg (V m c main_v41) (funext fun a => Fin.ext ?_)
  match a with
  | ⟨0, _⟩ => show win0_12.index t (0 : Fin 2) * 1 + 1 * (y 0).val = (y 0).val; rw [hi.1]; omega
  | ⟨1, _⟩ => show win0_12.index t (1 : Fin 2) * 128 + 1 * (y 1).val = (y 1).val; rw [hi.2]; omega

/-! ## What a point writes back -/

/-- The edge message depends on row p of the edge arrays only: computed from the blocks of point t at row p it is
    the message of the arrays at row 3200·t + p. -/
theorem msg_block (c : Dev nD) (t : Fin cfg0.N) (p : Fin 3200) (q : Fin 128) :
    EdgeSpec.msg (bXi m c t) (bCi m c t) (bXj m c t) (bCj m c t) (bRbf m c t) (bWr m c t) (row (bBr m c t))
        (bW1 m c t) (bW2 m c t) (bW3 m c t) (bW4 m c t) (bW5 m c t) (row (bB m c t)) p q
      = EdgeSpec.msg (aXi m c) (aCi m c) (aXj m c) (aCj m c) (aRbf m c) (aWr m c) (row (aBr m c))
        (aW1 m c) (aW2 m c) (aW3 m c) (aW4 m c) (aW5 m c) (row (aB m c)) (rowOf t p) q := by
  rw [bWr_eq, bBr_eq, bW1_eq, bW2_eq, bW3_eq, bW4_eq, bW5_eq, bB_eq]
  unfold EdgeSpec.msg EdgeSpec.pre EdgeSpec.radial
  simp only [bXi_apply, bCi_apply, bXj_apply, bCj_apply, bRbf_apply]

/-- Row p of block t of any array of the result's shape is its row 3200·t + p. -/
theorem read_out_blk (R : Vec Ideal S800000x128 .f32) (t : Fin cfg0.N) (p : Fin 3200) (q : Fin 128) :
    View.read (Elt Ideal) ((View.whole main_v42).slice ((win0 13).rect t)) R (ix2 p q) = R (ix2 (rowOf t p) q) := by
  have hi := (idx_facts t).2.2.2.2.2.2.2.2.2.2.2.2.2
  show R (((cfg0.win 13).blk t).view.emb (ix2 p q)) = R (ix2 (rowOf t p) q)
  refine congrArg R (funext fun a => Fin.ext ?_)
  match a with
  | ⟨0, _⟩ => show win0_13.index t (0 : Fin 2) * 3200 + 1 * p.val = t.val * 3200 + p.val; rw [hi.1]; omega
  | ⟨1, _⟩ => show win0_13.index t (1 : Fin 2) * 128 + 1 * q.val = q.val; rw [hi.2]; omega

/-- Point t writes back block t of the result. -/
theorem flushed_eq (c : Dev nD) (t : Fin cfg0.N) :
    (dats m 0 c).flushed 13 t = ((cfg0.win 13).blk t).view.read (Elt Ideal) (result m c) := by
  show (cfg0.win 13).cut (grid0.coords t) ((dats m 0 c).after 13 t) = _
  rw [after0_13]
  unfold out0_13
  rw [View.canon_unit_zero hz]
  simp only [View.ld_unit_zero (S := S3200x128) hz, View.ld_unit_zero (S := S3200x6) hz, View.ld_unit_zero (S := S6x128) hz,
    View.ld_unit_zero (S := S1x128) hz, View.ld_unit_zero (S := S128x128) hz]
  funext j
  obtain ⟨p, q, rfl⟩ : ∃ (p : Fin 3200) (q : Fin 128), j = ix2 p q := ⟨j 0, j 1, eq_ix2 j⟩
  refine (stored_apply (bXi m c t) (bCi m c t) (bXj m c t) (bCj m c t) (bRbf m c t) (bWr m c t) (bBr m c t)
    (bW1 m c t) (bW2 m c t) (bW3 m c t) (bW4 m c t) (bW5 m c t) (bB m c t) p q).trans ?_
  refine (msg_block m c t p q).trans ?_
  refine (EdgeSpec.G_ix2 (aXi m c) (aCi m c) (aXj m c) (aCj m c) (aRbf m c) (aWr m c) (row (aBr m c))
    (aW1 m c) (aW2 m c) (aW3 m c) (aW4 m c) (aW5 m c) (row (aB m c)) (rowOf t p) q).symm.trans ?_
  exact (read_out_blk (result m c) t p q).symm

/-- An index of the result is in point t's block iff each coordinate is in the block's range on its axis. -/
theorem mem_blk (t : Fin cfg0.N) (i : S800000x128.Idx) :
    i ∈ ((cfg0.win 13).blk t).view.set ↔ ∀ a : Fin 2, win0_13.index t a * S3200x128.size a ≤ (i a).val ∧ (i a).val < win0_13.index t a * S3200x128.size a + S3200x128.size a := by
  show i ∈ ((View.whole main_v42).slice (win0_13.rect t)).set ↔ _
  rw [View.set_slice_whole, Rect.mem_set_unit]
  exact Iff.rfl

/-- The 250 blocks tile the rows: row r is in the block of point r / 3200. -/
theorem cover (i : S800000x128.Idx) :
    ∃ t : Fin cfg0.N, (cfg0.win 13).flush t = true ∧ i ∈ ((cfg0.win 13).blk t).view.set := by
  have hi0 : (i 0).val < 800000 := (i 0).isLt
  have hi1 : (i 1).val < 128 := (i 1).isLt
  let t : Fin cfg0.N := ⟨(i 0).val / 3200, by rw [show cfg0.N = 250 from N_0]; omega⟩
  have ht : t.val = (i 0).val / 3200 := rfl
  have hi := (idx_facts t).2.2.2.2.2.2.2.2.2.2.2.2.2
  refine ⟨t, flush0_13 t, ?_⟩
  rw [mem_blk]
  intro a
  match a with
  | ⟨0, _⟩ => show win0_13.index t (0 : Fin 2) * 3200 ≤ (i 0).val ∧ (i 0).val < win0_13.index t (0 : Fin 2) * 3200 + 3200; rw [hi.1, ht]; omega
  | ⟨1, _⟩ => show win0_13.index t (1 : Fin 2) * 128 ≤ (i 1).val ∧ (i 1).val < win0_13.index t (1 : Fin 2) * 128 + 128; rw [hi.2]; omega

/-- The result array after the run. -/
theorem final (c : Dev nD) : (dats m 0 c).arrAt 13 cfg0.N = result m c :=
  (dats m 0 c).arrAt_eq_of_cover 13 (result m c) (fun t _ => flushed_eq m c t) cover

end Cert.KernelIdeal.Hand

end
-- ==== Proof.KernelHost.lean ====
/-
  What the region finds, and what follows it.

  Before the region the program gathers the four edge-feature arrays (the embedding rows of the node types, then the
  rows of that table and of the node features at the two edge-index arrays, a negative index wrapped once), slices the
  five 128-row blocks out of the weights and reshapes the two biases to one row.  These are the same operations, of the
  same arguments, as the reference applies; so each array the region finds is the reference's array of that stage.
  A vector reshaped to one row has the vector as that row.  After the region the program writes the integer constant one.
-/
import proofs.«118866_j55387898250013_1_alg».proof.Proof.KernelValue
import proofs.«118866_j55387898250013_1_alg».proof.Proof.RefValue
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Hand

open Cert.KernelIdeal Cert.KernelIdeal.Gen Cert.KernelIdeal.Payload

variable (m : (ℓ : Loc nD τ sig) → Buf (Elt Ideal) ℓ) (ρ : Dev nD → PrngReg)

/-- The embedding rows at the first edge index. -/
theorem aXi_eq (c : Dev nD) :
    aXi m c = Cert.ReferenceIdeal.Read.val_main_v29 (F := Ideal) (m ((c : Thread nD τ).loc main_arg0))
      (m ((c : Thread nD τ).loc main_arg3)) (m ((c : Thread nD τ).loc main_arg5)) := by
  show StableHlo.after hostOps0 (fun b => m (c, b)) (Proc.devRef .tc main_v13) = _
  after_results_simp <;> rfl

/-- The node features at the first edge index. -/
theorem aCi_eq (c : Dev nD) :
    aCi m c = Cert.ReferenceIdeal.Read.val_main_v37 (F := Ideal) (m ((c : Thread nD τ).loc main_arg1))
      (m ((c : Thread nD τ).loc main_arg3)) := by
  show StableHlo.after hostOps0 (fun b => m (c, b)) (Proc.devRef .tc main_v27) = _
  after_results_simp <;> rfl

/-- The embedding rows at the second edge index. -/
theorem aXj_eq (c : Dev nD) :
    aXj m c = Cert.ReferenceIdeal.Read.val_main_v46 (F := Ideal) (m ((c : Thread nD τ).loc main_arg0))
      (m ((c : Thread nD τ).loc main_arg4)) (m ((c : Thread nD τ).loc main_arg5)) := by
  show StableHlo.after hostOps0 (fun b => m (c, b)) (Proc.devRef .tc main_v20) = _
  after_results_simp <;> rfl

/-- The node features at the second edge index. -/
theorem aCj_eq (c : Dev nD) :
    aCj m c = Cert.ReferenceIdeal.Read.val_main_v55 (F := Ideal) (m ((c : Thread nD τ).loc main_arg1))
      (m ((c : Thread nD τ).loc main_arg4)) := by
  show StableHlo.after hostOps0 (fun b => m (c, b)) (Proc.devRef .tc main_v34) = _
  after_results_simp <;> rfl

/-- The radial features and the radial weights are arguments, as launched. -/
theorem aRbf_eq (c : Dev nD) : aRbf m c = m ((c : Thread nD τ).loc main_arg2) := V_main_arg2 m c
theorem aWr_eq (c : Dev nD) : aWr m c = m ((c : Thread nD τ).loc main_arg6) := V_main_arg6 m c

/-- The five 128-row blocks of the weights. -/
theorem aW1_eq (c : Dev nD) :
    aW1 m c = Cert.ReferenceIdeal.Read.val_main_v18 (F := Ideal) (m ((c : Thread nD τ).loc main_arg8)) := by
  show StableHlo.after hostOps0 (fun b => m (c, b)) (Proc.devRef .tc main_v35) = _
  after_results_simp <;> rfl
theorem aW2_eq (c : Dev nD) :
    aW2 m c = Cert.ReferenceIdeal.Read.val_main_v19 (F := Ideal) (m ((c : Thread nD τ).loc main_arg8)) := by
  show StableHlo.after hostOps0 (fun b => m (c, b)) (Proc.devRef .tc main_v36) = _
  after_results_simp <;> rfl
theorem aW3_eq (c : Dev nD) :
    aW3 m c = Cert.ReferenceIdeal.Read.val_main_v20 (F := Ideal) (m ((c : Thread nD τ).loc main_arg8)) := by
  show StableHlo.after hostOps0 (fun b => m (c, b)) (Proc.devRef .tc main_v37) = _
  after_results_simp <;> rfl
theorem aW4_eq (c : Dev nD) :
    aW4 m c = Cert.ReferenceIdeal.Read.val_main_v21 (F := Ideal) (m ((c : Thread nD τ).loc main_arg8)) := by
  show StableHlo.after hostOps0 (fun b => m (c, b)) (Proc.devRef .tc main_v38) = _
  after_results_simp <;> rfl
theorem aW5_eq (c : Dev nD) :
    aW5 m c = Cert.ReferenceIdeal.Read.val_main_v22 (F := Ideal) (m ((c : Thread nD τ).loc main_arg8)) := by
  show StableHlo.after hostOps0 (fun b => m (c, b)) (Proc.devRef .tc main_v39) = _
  after_results_simp <;> rfl

/-- A vector reshaped to one row has the vector as that row. -/
theorem row_shapeCast (x : Vec Ideal S128 .f32) : row (shapeCast S1x128 x shapeCasts_S128_S1x128) = x := by
  funext j
  obtain ⟨k, rfl⟩ : ∃ k : Fin 128, j = ix1 k := ⟨j 0, eq_ix1 j⟩
  rw [row_ix1]
  exact shapeCast_apply x shapeCasts_S128_S1x128 (ix2 (0 : Fin 1) k) (ix1 k) (by
    rw [Shape.rowMajor_val_two, Shape.rowMajor_val_one]; show k.val = 0 * 128 + k.val; omega)

/-- The radial bias, reshaped to one row before the region. -/
theorem aBr_eq (c : Dev nD) :
    aBr m c = shapeCast S1x128 (m ((c : Thread nD τ).loc main_arg7) : Vec Ideal S128 .f32) shapeCasts_S128_S1x128 := by
  show StableHlo.after hostOps0 (fun b => m (c, b)) (Proc.devRef .tc main_v40) = _
  after_results_simp <;> rfl

/-- The output bias, reshaped to one row before the region. -/
theorem aB_eq (c : Dev nD) :
    aB m c = shapeCast S1x128 (m ((c : Thread nD τ).loc main_arg9) : Vec Ideal S128 .f32) shapeCasts_S128_S1x128 := by
  show StableHlo.after hostOps0 (fun b => m (c, b)) (Proc.devRef .tc main_v41) = _
  after_results_simp <;> rfl

theorem row_aBr (c : Dev nD) : row (aBr m c) = (m ((c : Thread nD τ).loc main_arg7) : Vec Ideal S128 .f32) := by
  rw [aBr_eq]; exact row_shapeCast _
theorem row_aB (c : Dev nD) : row (aB m c) = (m ((c : Thread nD τ).loc main_arg9) : Vec Ideal S128 .f32) := by
  rw [aB_eq]; exact row_shapeCast _

/-- The result as the reference's function of the arguments. -/
theorem result_eq (c : Dev nD) :
    result m c = Cert.ReferenceIdeal.Read.val_main_v69 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  rw [Cert.ReferenceIdeal.RefValue.result_eq]
  show EdgeSpec.G (aXi m c) (aCi m c) (aXj m c) (aCj m c) (aRbf m c) (aWr m c) (row (aBr m c))
    (aW1 m c) (aW2 m c) (aW3 m c) (aW4 m c) (aW5 m c) (row (aB m c)) = _
  rw [aXi_eq, aCi_eq, aXj_eq, aCj_eq, aRbf_eq, aWr_eq, row_aBr, aW1_eq, aW2_eq, aW3_eq, aW4_eq, aW5_eq, row_aB]

/-- After the region the program writes the integer constant one. -/
theorem tail_const (c : Dev nD) :
    Pipeline.afterTail₀ cfgs (dats m) 0 (V0 m) [hostOps1] c main_c_9 = constantI S_ 32 1#32 := by
  unfold Pipeline.afterTail₀
  show StableHlo.after hostOps1 _ (Proc.devRef .tc main_c_9) = _
  after_results

end Cert.KernelIdeal.Hand

end
-- ==== Proof.KernelRun.lean ====
/-
  The kernel program's run, read: its result array ends at the specification's array of edge messages of the arrays the
  region finds, its second result at the integer constant one, and every argument array as launched.
-/
import proofs.«118866_j55387898250013_1_alg».proof.Proof.KernelHost

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- Every weakly fair execution ends with the result array at `result`, the constant written after the region, and the
    arguments unchanged: the result array is the output window's array after the last write-back, the constant is what
    the one operation after the region writes, and no operation writes an argument. -/
theorem run : θ_run defs (onTc (τ := τ) (main (F := Ideal))) ⟨m, fun _ => 0, ρ⟩ fun r => ∀ c : Dev nD,
      r.2.mem ((c.tc : Thread nD τ).loc main_v42) = result m c
      ∧ r.2.mem ((c.tc : Thread nD τ).loc main_c_9) = constantI S_ 32 1#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 13).trans (final m c),
      ((h c).2 main_c_9 (Pipeline.mem_restRefs_of main_c_9 (by decide) (by decide))).trans (tail_const m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Hand

end
-- ==== Proof.lean ====
/-
  The edge-message kernel against its reference, over the extended reals.

  Both programs gather, with the same operations, the embedding rows and the node features at the two edge-index arrays,
  and both compute for every edge p and feature q

      swish ( Σ_k xi(p,k)·W1(k,q) + Σ_k ci(p,k)·W2(k,q) + Σ_k xj(p,k)·W3(k,q) + Σ_k cj(p,k)·W4(k,q)
              + Σ_k swish( Σ_r rbf(p,r)·Wr(r,k) + br(k) ) · W5(k,q) + b(q) ),

  the products added from the left in the same order.  The kernel does it in 250 blocks of 3200 edges, each product into a
  zero accumulator, with swish spelt v / (1 + exp(0 − v)); the reference does it on the whole arrays with swish spelt
  v · (1 / (1 + exp(−v))).  A row of a product depends on the same row of the left operand only, so the blocks are the
  rows of the whole; the two spellings of swish agree on every extended real, because 1 + exp(x) is never zero.  The
  equality needs nothing of the inputs: the precondition is not used.  Both programs return the integer constant one
  as their second result.  The ideal pass rewrote nothing, so the kernel's idealization is its own text.
-/
import proofs.«118866_j55387898250013_1_alg».proof.Defs
import proofs.«118866_j55387898250013_1_alg».proof.Proof.Gen.Kernel
import proofs.«118866_j55387898250013_1_alg».proof.Proof.Gen.Kernel.Frame
import proofs.«118866_j55387898250013_1_alg».proof.Proof.Gen.KernelIdeal
import proofs.«118866_j55387898250013_1_alg».proof.Proof.Gen.KernelIdeal.Frame
import proofs.«118866_j55387898250013_1_alg».proof.Proof.Gen.ReferenceIdeal
import proofs.«118866_j55387898250013_1_alg».proof.Proof.Gen.ReferenceIdeal.Run
import proofs.«118866_j55387898250013_1_alg».proof.Proof.Gen.ReferenceIdeal.Read
import proofs.«118866_j55387898250013_1_alg».proof.Proof.Gen.Pre_finite_inputs
import proofs.«118866_j55387898250013_1_alg».proof.Proof.RefValue
import proofs.«118866_j55387898250013_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a sequence of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same two results: the edge messages, as the reference's function of the arguments, and
    the integer constant one. -/
theorem algebraic : Cert.algebraic_KernelIdeal_ReferenceIdeal := by
  intro m ρ m' ρ' _ hagree
  refine ⟨fun c => Cert.KernelIdeal.Hand.result m c, fun c => constantI Cert.KernelIdeal.S_ 32 1#32,
    Cert.KernelIdeal.Hand.run m ρ, ?_⟩
  refine (θ_run Cert.ReferenceIdeal.defs _ _).mono (fun _ h c => ?_) (Cert.ReferenceIdeal.Value.run (F := Ideal) m' ρ')
  obtain ⟨h69, hc12, hargs⟩ := h c
  obtain ⟨e0, e1, e2, e3, e4, e5, e6, e7, e8, e9⟩ := hagree c
  refine ⟨h69.trans ?_, hc12, hargs⟩
  rw [Cert.ReferenceIdeal.Read.val_main_v69_eq, e0, e1, e2, e3, e4, e5, e6, e7, e8, e9]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
